-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024x1024 : Shape := ⟨2, ![1024, 1024]⟩
abbrev S1024 : Shape := ⟨1, ![1024]⟩
abbrev S1024x32 : Shape := ⟨2, ![1024, 32]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg4 : FVec F S1024x32 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024x32 .f32 := Host.absf main_arg4
  let main_cst_6 : FVec F S_ .f32 := constant S_ .f32 0x7F800000#32
  let main_v20 : FVec F S1024x32 .f32 := broadcastInDim S1024x32 ![] bcast_S_S1024x32 main_cst_6
  let main_v21 : IVec S1024x32 1 := cmpf .olt main_v19 main_v20
  let main_c_7 : IVec S_ 1 := constantI S_ 1 1#1
  let main_v22 : IVec S_ 1 := (fun x v => Host.reduce IntOp.andi x v reducesTo_S1024x32_S_d0_1 h_S_) main_v21 main_c_7
  let main_v23 : IVec S_ 1 := andi main_v18 main_v22
  main_v23

def fn {F : FTy → Type} [FloatOps F] (main_arg0 : FVec F S8x8192x1024 .f32) (main_arg1 : FVec F S1024x1024 .f32) (main_arg2 : FVec F S1024 .f32) (main_arg3 : FVec F S1024x32 .f32) (main_arg4 : FVec F S1024x32 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_v13 main_v16
-- ==== Kernel.lean ====
abbrev S8x8192x1024 : Shape := ⟨3, ![8, 8192, 1024]⟩
abbrev S1024x1024 : Shape := ⟨2, ![1024, 1024]⟩
abbrev S1024 : Shape := ⟨1, ![1024]⟩
abbrev S1024x32 : Shape := ⟨2, ![1024, 32]⟩
abbrev S65536x1024 : Shape := ⟨2, ![65536, 1024]⟩
abbrev S32x1024 : Shape := ⟨2, ![32, 1024]⟩
abbrev S1x1024 : Shape := ⟨2, ![1, 1024]⟩
abbrev S512x1024 : Shape := ⟨2, ![512, 1024]⟩
abbrev S512x32 : Shape := ⟨2, ![512, 32]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024x32, .f32⟩
  | .hbm, ⟨4, _⟩ => ⟨S1024x32, .f32⟩
  | .hbm, ⟨5, _⟩ => ⟨S65536x1024, .f32⟩
  | .hbm, ⟨6, _⟩ => ⟨S1024x1024, .f32⟩
  | .hbm, ⟨7, _⟩ => ⟨S32x1024, .f32⟩
  | .hbm, ⟨8, _⟩ => ⟨S1x1024, .f32⟩
  | .hbm, ⟨9, _⟩ => ⟨S65536x1024, .f32⟩
  | .hbm, ⟨10, _⟩ => ⟨S8x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1024x32, .f32⟩
  | .local _ .vmem, ⟨5, _⟩ => ⟨S32x1024, .f32⟩
  | .local _ .vmem, ⟨6, _⟩ => ⟨S512x1024, .f32⟩
  | .local _ .vmem, ⟨7, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x8192x1024_S65536x1024 : S8x8192x1024.ShapeCasts S65536x1024
  transposes_S1024x1024_S1024x1024_1_0 : S1024x1024.Transposes [1, 0] S1024x1024
  transposes_S1024x32_S32x1024_1_0 : S1024x32.Transposes [1, 0] S32x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S65536x1024_S8x8192x1024 : S65536x1024.ShapeCasts S8x8192x1024
  dot_S512x1024_S1024x1024_S512x1024_1_0_0_1_n_n_wf : DotDims.WF S512x1024 S1024x1024 S512x1024 [1] [0] [0] [1] [] []
  dot_S512x1024_S1024x32_S512x32_1_0_0_1_n_n_wf : DotDims.WF S512x1024 S1024x32 S512x32 [1] [0] [0] [1] [] []
  dot_S512x32_S32x1024_S512x1024_1_0_0_1_n_n_wf : DotDims.WF S512x32 S32x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .f32 = 32 ∨ (Rect.block (s := S1024x32) S1024x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .f32 = 32 ∨ (Rect.block (s := S32x1024) S32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S65536x1024.size a
  hwx0_5 : ∀ i : grid0.Coords, EltTy.bits .f32 = 32 ∨ (Rect.block (s := S65536x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x32_S512x32_1_0_0_1_n_n : DotDims S512x1024 S1024x32 S512x32 where
  lhsContracting := [1]
  rhsContracting := [0]
  lhsNonContracting := [0]
  rhsNonContracting := [1]
  lhsBatch := []
  rhsBatch := []
  wf := dot_S512x1024_S1024x32_S512x32_1_0_0_1_n_n_wf
def dot_S512x32_S32x1024_S512x1024_1_0_0_1_n_n : DotDims S512x32 S32x1024 S512x1024 where
  lhsContracting := [1]
  rhsContracting := [0]
  lhsNonContracting := [0]
  rhsNonContracting := [1]
  lhsBatch := []
  rhsBatch := []
  wf := dot_S512x32_S32x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024x1024 : Shape := ⟨2, ![1024, 1024]⟩
abbrev S1024 : Shape := ⟨1, ![1024]⟩
abbrev S1024x32 : Shape := ⟨2, ![1024, 32]⟩
abbrev S1x1x1024 : Shape := ⟨3, ![1, 1, 1024]⟩
abbrev S8x8192x32 : Shape := ⟨3, ![8, 8192, 32]⟩

abbrev nBuf : Space → Nat
  | .hbm => 12
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024x32, .f32⟩
  | .hbm, ⟨4, _⟩ => ⟨S1024x32, .f32⟩
  | .hbm, ⟨5, _⟩ => ⟨S8x8192x1024, .f32⟩
  | .hbm, ⟨6, _⟩ => ⟨S1x1x1024, .f32⟩
  | .hbm, ⟨7, _⟩ => ⟨S8x8192x1024, .f32⟩
  | .hbm, ⟨8, _⟩ => ⟨S8x8192x1024, .f32⟩
  | .hbm, ⟨9, _⟩ => ⟨S8x8192x32, .f32⟩
  | .hbm, ⟨10, _⟩ => ⟨S8x8192x1024, .f32⟩
  | .hbm, ⟨11, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  dot_S8x8192x1024_S1024x1024_S8x8192x1024_2_1_01_0_n_n_wf : DotDims.WF S8x8192x1024 S1024x1024 S8x8192x1024 [2] [1] [0, 1] [0] [] []
  dot_S8x8192x1024_S1024x32_S8x8192x32_2_0_01_1_n_n_wf : DotDims.WF S8x8192x1024 S1024x32 S8x8192x32 [2] [0] [0, 1] [1] [] []
  dot_S8x8192x32_S1024x32_S8x8192x1024_2_1_01_0_n_n_wf : DotDims.WF S8x8192x32 S1024x32 S8x8192x1024 [2] [1] [0, 1] [0] [] []

variable [Facts₀]

def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf
def dot_S8x8192x1024_S1024x32_S8x8192x32_2_0_01_1_n_n : DotDims S8x8192x1024 S1024x32 S8x8192x32 where
  lhsContracting := [2]
  rhsContracting := [0]
  lhsNonContracting := [0, 1]
  rhsNonContracting := [1]
  lhsBatch := []
  rhsBatch := []
  wf := dot_S8x8192x1024_S1024x32_S8x8192x32_2_0_01_1_n_n_wf
def dot_S8x8192x32_S1024x32_S8x8192x1024_2_1_01_0_n_n : DotDims S8x8192x32 S1024x32 S8x8192x1024 where
  lhsContracting := [2]
  rhsContracting := [1]
  lhsNonContracting := [0, 1]
  rhsNonContracting := [0]
  lhsBatch := []
  rhsBatch := []
  wf := dot_S8x8192x32_S1024x32_S8x8192x1024_2_1_01_0_n_n_wf

class Facts : Prop extends Facts₀ where

variable [Facts]
-- ==== Proof.Spec.lean ====
/-
  The corrected linear layer, entry by entry over the extended reals.

  A token is a row of 1024 input features.  Output feature `o` of a token with features `xrow` is
    (Σ_d xrow d · W[o, d]  +  b[o])  +  Σ_r (Σ_d xrow d · V[d, r]) · C[o, r]:
  the dense product with `Wᵀ`, the bias, and the rank-32 correction kept in factored form, added in this order.
  `result` applies it to every token of a [8, 8192, 1024] array.  `flat` is the same map as the device region
  sees it: the tokens laid out as the 65536 rows of a matrix, the two weight matrices already transposed
  (`Wt[d, o] = W[o, d]`, `Ct[r, o] = C[o, r]`) and the bias a one-row matrix.  `reshape_flat` joins the two: row
  `8192·a + s` of the flattened tokens is token `(a, s)`, in both directions of the reshape, and a transposed matrix
  read at `(j, i)` is the matrix at `(i, j)`; no arithmetic law is involved, the two sides are the same sums.
-/
import Idealize.ShloMosaic.Lib.ValueIdx
import Idealize.ShloMosaic.Lib.ValueLayout
import Idealize.ShloMosaic.Lib.Pipeline.Value
import Idealize.ShloMosaic.PureOps.Ideal

noncomputable section

namespace Cert.CorrectedLinear

open Idealize.ShloMosaic Idealize.ShloMosaic.ValueIdx

/-- Tokens by batch, position and feature. -/
abbrev Tok : Shape := ⟨3, ![8, 8192, 1024]⟩
/-- The same tokens as the rows of one matrix. -/
abbrev Rows : Shape := ⟨2, ![65536, 1024]⟩
abbrev Sq : Shape := ⟨2, ![1024, 1024]⟩
abbrev Tall : Shape := ⟨2, ![1024, 32]⟩
abbrev Wide : Shape := ⟨2, ![32, 1024]⟩
abbrev Feat : Shape := ⟨1, ![1024]⟩
abbrev OneRow : Shape := ⟨2, ![1, 1024]⟩

/-- Output feature `o` of the token with input features `xrow`. -/
def entry (xrow : Fin 1024 → EReal) (W : Sq.Idx → EReal) (b : Feat.Idx → EReal) (V C : Tall.Idx → EReal) (o : Fin 1024) : EReal :=
  ((∑ d : Fin 1024, xrow d * W (ix2 o d)) + b (ix1 o))
    + ∑ r : Fin 32, (∑ d : Fin 1024, xrow d * V (ix2 d r)) * C (ix2 o r)

/-- The layer on every token. -/
def result (x : Tok.Idx → EReal) (W : Sq.Idx → EReal) (b : Feat.Idx → EReal) (V C : Tall.Idx → EReal) : Tok.Idx → EReal :=
  fun i => entry (fun d => x (ix3 (i 0) (i 1) d)) W b V C (i 2)

/-- Entry `(P, q)` of the region's result over the flattened tokens and the transposed weights. -/
def flatEntry (X : Rows.Idx → EReal) (Wt : Sq.Idx → EReal) (b2 : OneRow.Idx → EReal) (V : Tall.Idx → EReal) (Ct : Wide.Idx → EReal)
    (P : Fin 65536) (q : Fin 1024) : EReal :=
  ((∑ d : Fin 1024, X (ix2 P d) * Wt (ix2 d q)) + b2 (ix2 (0 : Fin 1) q))
    + ∑ r : Fin 32, (∑ d : Fin 1024, X (ix2 P d) * V (ix2 d r)) * Ct (ix2 r q)

/-- The region's whole result. -/
def flat (X : Rows.Idx → EReal) (Wt : Sq.Idx → EReal) (b2 : OneRow.Idx → EReal) (V : Tall.Idx → EReal) (Ct : Wide.Idx → EReal) : Rows.Idx → EReal :=
  fun i => flatEntry X Wt b2 V Ct (i 0) (i 1)

/-- Token `(a, s)` is row `8192·a + s`. -/
def rowOf (a : Fin 8) (s : Fin 8192) : Fin 65536 := ⟨a.val * 8192 + s.val, by have := a.isLt; have := s.isLt; omega⟩

/-- The flattened tokens at row `8192·a + s`, feature `d`, are the tokens at `(a, s, d)`. -/
theorem flatten_apply (x : Tok.Idx → EReal) (h : Tok.ShapeCasts Rows) (a : Fin 8) (s : Fin 8192) (d : Fin 1024) :
    shapeCast Rows x h (ix2 (rowOf a s) d) = x (ix3 a s d) :=
  shapeCast_apply x h _ _ (by rw [Shape.rowMajor_val_three, Shape.rowMajor_val_two]; rfl)

/-- A matrix of rows read back as tokens: token `(a, s)`, feature `o`, is row `8192·a + s` at `o`. -/
theorem unflatten_apply (y : Rows.Idx → EReal) (h : Rows.ShapeCasts Tok) (a : Fin 8) (s : Fin 8192) (o : Fin 1024) :
    shapeCast Tok y h (ix3 a s o) = y (ix2 (rowOf a s) o) :=
  shapeCast_apply y h _ _ (by rw [Shape.rowMajor_val_three, Shape.rowMajor_val_two]; rfl)

/-- The bias as a one-row matrix, at `(0, o)`, is the bias at `o`. -/
theorem biasRow_apply (b : Feat.Idx → EReal) (h : Feat.ShapeCasts OneRow) (u : Fin 1) (o : Fin 1024) :
    shapeCast OneRow b h (ix2 u o) = b (ix1 o) := shapeCast_a_1a_apply b h u o

/-- The region's result over the reshaped and transposed arguments, read back as tokens, is the layer. -/
theorem reshape_flat (x : Tok.Idx → EReal) (W : Sq.Idx → EReal) (b : Feat.Idx → EReal) (V C : Tall.Idx → EReal)
    (hx : Tok.ShapeCasts Rows) (hW : Sq.Transposes [1, 0] Sq) (hC : Tall.Transposes [1, 0] Wide) (hb : Feat.ShapeCasts OneRow)
    (hy : Rows.ShapeCasts Tok) :
    shapeCast Tok (flat (shapeCast Rows x hx) (transpose Sq [1, 0] W hW) (shapeCast OneRow b hb) V (transpose Wide [1, 0] C hC)) hy
      = result x W b V C := by
  funext i
  obtain ⟨a, s, o, rfl⟩ : ∃ (a : Fin 8) (s : Fin 8192) (o : Fin 1024), i = ix3 a s o := ⟨i 0, i 1, i 2, eq_ix3 i⟩
  rw [unflatten_apply]
  show flatEntry _ _ _ _ _ (rowOf a s) o = entry (fun d => x (ix3 a s d)) W b V C o
  unfold flatEntry entry
  have hWt : ∀ d o : Fin 1024, transpose Sq [1, 0] W hW (ix2 d o) = W (ix2 o d) := fun d o => transpose_ix2_apply W hW d o
  have hCt : ∀ (r : Fin 32) (o : Fin 1024), transpose Wide [1, 0] C hC (ix2 r o) = C (ix2 o r) := fun r o => transpose_ix2_apply C hC r o
  simp only [flatten_apply, hWt, hCt, biasRow_apply]

end Cert.CorrectedLinear

end
-- ==== Proof.RefValue.lean ====
/-
  The reference program's result is the layer of Spec.lean.

  Its seven host operations, read at a token index `i = (a, s, o)`: the first product contracts the tokens' feature
  axis with the weight's second axis, so it is Σ_d x[a, s, d] · W[o, d]; the bias is broadcast along batch and
  position, so it reads b[o]; the factored correction is Σ_r (Σ_d x[a, s, d] · V[d, r]) · C[o, r]; the two additions
  are in the layer's order.  Every operand index is the one `result` names, coordinate by coordinate.
-/
import proofs.«107031_j70317204570758_1_alg».proof.Proof.Gen.ReferenceIdeal.Read
import proofs.«107031_j70317204570758_1_alg».proof.Proof.Spec

noncomputable section

namespace Cert.CorrectedLinear.Reference

open Cert.ReferenceIdeal Cert.ReferenceIdeal.Read Idealize.ShloMosaic Idealize.ShloMosaic.ValueIdx Cert.CorrectedLinear

/-- The last stage of the reference, as a function of the five arguments, is `result`. -/
theorem stage_eq_result (x : (⟨S8x8192x1024, .f32⟩ : BufTy).Contents (Elt Ideal)) (W : (⟨S1024x1024, .f32⟩ : BufTy).Contents (Elt Ideal))
    (b : (⟨S1024, .f32⟩ : BufTy).Contents (Elt Ideal)) (V C : (⟨S1024x32, .f32⟩ : BufTy).Contents (Elt Ideal)) :
    val_main_v6 (F := Ideal) x W b V C = result x W b V C := by
  funext i
  have l0 : ∀ k : Fin 1024, lidx_main_v0 i k = ix3 (i 0) (i 1) k := fun k => funext fun a => by
    match a with | ⟨0, _⟩ => rfl | ⟨1, _⟩ => rfl | ⟨2, _⟩ => rfl
  have r0 : ∀ k : Fin 1024, ridx_main_v0 i k = ix2 (i 2) k := fun k => funext fun a => by
    match a with | ⟨0, _⟩ => rfl | ⟨1, _⟩ => rfl
  have bi : idx_main_v1 (idx_main_v2 i) = ix1 (i 2) := funext fun a => by
    match a with | ⟨0, _⟩ => rfl
  have l4 : ∀ (r : Fin 32) (d : Fin 1024), lidx_main_v4 (lidx_main_v5 i r) d = ix3 (i 0) (i 1) d := fun r d => funext fun a => by
    match a with | ⟨0, _⟩ => rfl | ⟨1, _⟩ => rfl | ⟨2, _⟩ => rfl
  have r4 : ∀ (r : Fin 32) (d : Fin 1024), ridx_main_v4 (lidx_main_v5 i r) d = ix2 d r := fun r d => funext fun a => by
    match a with | ⟨0, _⟩ => rfl | ⟨1, _⟩ => rfl
  have r5 : ∀ r : Fin 32, ridx_main_v5 i r = ix2 (i 2) r := fun r => funext fun a => by
    match a with | ⟨0, _⟩ => rfl | ⟨1, _⟩ => rfl
  rw [val_main_v6_apply, val_main_v3_apply, val_main_v0_apply, val_main_v2_apply, val_main_v1_apply, val_main_v5_apply]
  simp only [val_main_v4_apply, l0, r0, bi, l4, r4, r5, Ideal.addf_def]
  rfl

end Cert.CorrectedLinear.Reference

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Payload.lean ====
/-
  What one grid point stores, entry by entry.

  The body loads a block of 512 token rows `xb`, the transposed weight `wt`, the factor `vr`, the transposed
  factor `ct` and the one-row bias `b2`, and stores
      (xb · wt  +  b2 broadcast over the rows)  +  (xb · vr) · ct.
  Over the extended reals a change of float format is the identity and a product into the zero accumulator is
  the plain sum over the contracted axis, so entry `(p, q)` of the stored block is
      (Σ_d xb[p, d] · wt[d, q]  +  b2[0, q])  +  Σ_r (Σ_d xb[p, d] · vr[d, r]) · ct[r, q].
-/
import proofs.«107031_j70317204570758_1_alg».proof.Proof.Gen.KernelIdeal.Skeleton
import proofs.«107031_j70317204570758_1_alg».proof.Proof.LibPlainDot
import Idealize.ShloMosaic.Lib.ValueLayout
import Idealize.ShloMosaic.Lib.Pipeline.Value

noncomputable section

namespace Cert.CorrectedLinear.Block

open Cert.KernelIdeal Cert.KernelIdeal.Gen Idealize.ShloMosaic Idealize.ShloMosaic.ValueIdx

/-- Narrowing the float format changes no extended real. -/
theorem narrow_eq {s : Shape} {φ ψ : FTy} (a : FVec Ideal s φ) (h : ψ.bits < φ.bits) : (truncf ψ a h : FVec Ideal s ψ) = a := rfl

/-- Entry `(p, q)` of the block a grid point stores. -/
theorem stored_apply (xb : Vec Ideal S512x1024 .f32) (wt : Vec Ideal S1024x1024 .f32) (vr : Vec Ideal S1024x32 .f32)
    (ct : Vec Ideal S32x1024 .f32) (b2 : Vec Ideal S1x1024 .f32) (p : Fin 512) (q : Fin 1024) :
    k0_pay1 (F := Ideal) xb wt vr ct b2 (ix2 p q)
      = ((∑ d : Fin 1024, xb (ix2 p d) * wt (ix2 d q)) + b2 (ix2 (0 : Fin 1) q))
        + ∑ r : Fin 32, (∑ d : Fin 1024, xb (ix2 p d) * vr (ix2 d r)) * ct (ix2 r q) := by
  unfold k0_pay1
  simp only [shapeCast_self, narrow_eq]
  rw [addf_apply, addf_apply,
    Cert.PlainDot.matmul_zero_apply dot_S512x1024_S1024x1024_S512x1024_1_0_0_1_n_n rfl none xb wt p q,
    broadcastTo_1b_ab_apply b2 broadcasts_S1x1024_S512x1024 p q,
    Cert.PlainDot.matmul_zero_apply dot_S512x32_S32x1024_S512x1024_1_0_0_1_n_n rfl none _ ct p q]
  simp only [Cert.PlainDot.matmul_zero_apply dot_S512x1024_S1024x32_S512x32_1_0_0_1_n_n rfl none xb vr]

end Cert.CorrectedLinear.Block

end
-- ==== Proof.Region.lean ====
/-
  The device program's result array is the layer of Spec.lean.

  The grid has 128 points; point `t` reads token rows `512 t … 512 t + 511` of the flattened tokens and the four
  small operands whole, and writes rows `512 t … 512 t + 511` of the result.  So what point `t` writes back is
  block `t` of ONE function of the arrays as the region finds them, `flat`, and since the 128 row blocks tile the
  65536 rows the result array ends holding `flat` everywhere.  Before the region the host flattens the tokens,
  transposes the two weight matrices and makes the bias a row; after it the host reads the rows back as tokens:
  by `reshape_flat` the final array is `result` of the five arguments.
-/
import proofs.«107031_j70317204570758_1_alg».proof.Proof.Gen.KernelIdeal.Frame
import proofs.«107031_j70317204570758_1_alg».proof.Proof.Payload
import proofs.«107031_j70317204570758_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.CorrectedLinear.Region

open Cert.KernelIdeal Cert.KernelIdeal.Gen Idealize.ShloMosaic.ValueIdx Cert.CorrectedLinear

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the token window and the result window are at row block `t`, the four
    small operands always at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the token block at point `t` is row `512 t + p` of the flattened tokens. -/
theorem tokens_block (c : Dev nD) (t : Fin cfg0.N) (p : Fin 512) (d : Fin 1024) (P : Fin 65536) (hP : P.val = t.val * 512 + p.val) :
    (iblk m c 0 t : Vec Ideal S512x1024 .f32) (ix2 p d) = (V m c main_v0 : Vec Ideal S65536x1024 .f32) (ix2 P d) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = P.val; rw [e0, hP]; omega
  | ⟨1, _⟩ => show win0_0.index t (1 : Fin 2) * 1024 + 1 * d.val = d.val; rw [e1]; omega

/-- The transposed weight's one block is the whole matrix. -/
theorem weight_block (c : Dev nD) (t : Fin cfg0.N) : (iblk m c 1 t : Vec Ideal S1024x1024 .f32) = V m c main_v1 := by
  obtain ⟨-, -, e0, e1, -⟩ := idx_facts t
  funext y
  unfold iblk
  rw [View.read_apply]
  show V m c main_v1 _ = V m c main_v1 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The bias row's one block is the whole row. -/
theorem bias_block (c : Dev nD) (t : Fin cfg0.N) : (iblk m c 2 t : Vec Ideal S1x1024 .f32) = V m c main_v3 := by
  obtain ⟨-, -, -, -, e0, e1, -⟩ := idx_facts t
  funext y
  unfold iblk
  rw [View.read_apply]
  show V m c main_v3 _ = V m c main_v3 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- The first correction factor's one block is the whole matrix. -/
theorem factor_block (c : Dev nD) (t : Fin cfg0.N) : (iblk m c 3 t : Vec Ideal S1024x32 .f32) = V m c main_arg3 := by
  obtain ⟨-, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 32 + 1 * (y 1).val = (y 1).val; rw [e1]; omega

/-- The transposed second factor's one block is the whole matrix. -/
theorem cofactor_block (c : Dev nD) (t : Fin cfg0.N) : (iblk m c 4 t : Vec Ideal S32x1024 .f32) = V m c main_v2 := by
  obtain ⟨-, -, -, -, -, -, -, -, e0, e1, -⟩ := idx_facts t
  funext y
  unfold iblk
  rw [View.read_apply]
  show V m c main_v2 _ = V m c main_v2 y
  congr 1
  funext a
  apply Fin.ext
  match a with
  | ⟨0, _⟩ => show win0_4.index t (0 : Fin 2) * 32 + 1 * (y 0).val = (y 0).val; rw [e0]; omega
  | ⟨1, _⟩ => show win0_4.index t (1 : Fin 2) * 1024 + 1 * (y 1).val = (y 1).val; rw [e1]; omega

/-- A stored block whose token rows are rows `512 T …` of `X` is that row block of `flat`. -/
theorem block_is_flat (X : Vec Ideal S65536x1024 .f32) (Wt : Vec Ideal S1024x1024 .f32) (B2 : Vec Ideal S1x1024 .f32)
    (Vr : Vec Ideal S1024x32 .f32) (Ct : Vec Ideal S32x1024 .f32) (xb : Vec Ideal S512x1024 .f32) (T : ℕ)
    (hx : ∀ (p : Fin 512) (d : Fin 1024) (P : Fin 65536), P.val = T * 512 + p.val → xb (ix2 p d) = X (ix2 P d))
    (y : S512x1024.Idx) (i : S65536x1024.Idx) (h0 : (i 0).val = T * 512 + (y 0).val) (h1 : (i 1).val = (y 1).val) :
    k0_pay1 (F := Ideal) xb Wt Vr Ct B2 y = flat X Wt B2 Vr Ct i := by
  obtain ⟨p, q, rfl⟩ : ∃ (p : Fin 512) (q : Fin 1024), y = ix2 p q := ⟨y 0, y 1, eq_ix2 y⟩
  obtain ⟨P, q', rfl⟩ : ∃ (P : Fin 65536) (q' : Fin 1024), i = ix2 P q' := ⟨i 0, i 1, eq_ix2 i⟩
  have hP : P.val = T * 512 + p.val := h0
  obtain rfl : q' = q := Fin.ext h1
  rw [Block.stored_apply]
  show _ = flatEntry X Wt B2 Vr Ct P q'
  unfold flatEntry
  simp only [hx _ _ P hP]

/-- WHAT POINT `t` WRITES BACK is block `t` of `flat` of the arrays as the region finds them. -/
theorem flushed_eq (c : Dev nD) (t : Fin cfg0.N) :
    (dats m 0 c).flushed 5 t = ((cfg0.win 5).blk t).view.read (Elt Ideal)
      (flat (V m c main_v0) (V m c main_v1) (V m c main_v3) (V m c main_arg3) (V m c main_v2)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x1024) hz, View.ld_unit_zero (S := S1024x32) hz,
    View.ld_unit_zero (S := S32x1024) hz, View.ld_unit_zero (S := S1x1024) hz]
  rw [weight_block, bias_block, factor_block, cofactor_block]
  obtain ⟨-, -, -, -, -, -, -, -, -, -, e0, e1⟩ := idx_facts t
  funext j
  refine block_is_flat _ _ _ _ _ (iblk m c 0 t) t.val (fun p d P hP => tokens_block m c t p d P hP) j
    (((cfg0.win 5).blk t).view.emb j) ?_ ?_
  · show win0_5.index t (0 : Fin 2) * 512 + 1 * (j 0).val = t.val * 512 + (j 0).val
    rw [e0]; omega
  · show win0_5.index t (1 : Fin 2) * 1024 + 1 * (j 1).val = (j 1).val
    rw [e1]; omega

/-- An index of the result array is in point `t`'s block iff each coordinate is in the block's range on its axis. -/
theorem mem_blk (t : Fin cfg0.N) (i : S65536x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4).slice (win0_5.rect t)).set ↔ _
  rw [View.set_slice_whole, Rect.mem_set_unit]
  exact Iff.rfl

/-- Row `r` of the result lies in the block of point `r / 512`: the row blocks tile the array. -/
theorem covered (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  have hN : cfg0.N = 128 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- THE RESULT ARRAY after the region is `flat` of the arrays as the region finds them. -/
theorem final (c : Dev nD) : (dats m 0 c).arrAt 5 cfg0.N
    = flat (V m c main_v0) (V m c main_v1) (V m c main_v3) (V m c main_arg3) (V m c main_v2) :=
  (dats m 0 c).arrAt_eq_of_cover 5 _ (fun t _ => flushed_eq m c t) covered

/-! ## The host operations around the region -/

/-- The region finds the tokens flattened to rows, -/
theorem rows_eq (c : Dev nD) : (V m c main_v0 : Vec Ideal S65536x1024 .f32)
    = shapeCast S65536x1024 (m ((c : Thread nD τ).loc main_arg0)) shapeCasts_S8x8192x1024_S65536x1024 := by
  show StableHlo.after hostOps0 (fun b => m (c, b)) (Proc.devRef .tc main_v0) = _
  after_results
  rfl

/-- the square weight transposed, -/
theorem weightT_eq (c : Dev nD) : (V m c main_v1 : Vec Ideal S1024x1024 .f32)
    = transpose S1024x1024 [1, 0] (m ((c : Thread nD τ).loc main_arg1)) transposes_S1024x1024_S1024x1024_1_0 := by
  show StableHlo.after hostOps0 (fun b => m (c, b)) (Proc.devRef .tc main_v1) = _
  after_results <;> rfl

/-- the second correction factor transposed, -/
theorem cofactorT_eq (c : Dev nD) : (V m c main_v2 : Vec Ideal S32x1024 .f32)
    = transpose S32x1024 [1, 0] (m ((c : Thread nD τ).loc main_arg4)) transposes_S1024x32_S32x1024_1_0 := by
  show StableHlo.after hostOps0 (fun b => m (c, b)) (Proc.devRef .tc main_v2) = _
  after_results <;> rfl

/-- and the bias as a one-row matrix. -/
theorem biasRow_eq (c : Dev nD) : (V m c main_v3 : Vec Ideal S1x1024 .f32)
    = shapeCast S1x1024 (m ((c : Thread nD τ).loc main_arg2)) shapeCasts_S1024_S1x1024 := by
  show StableHlo.after hostOps0 (fun b => m (c, b)) (Proc.devRef .tc main_v3) = _
  after_results <;> rfl

/-- After the region the host reads the result rows back as tokens. -/
theorem tail_eq (c : Dev nD) : Pipeline.afterTail₀ cfgs (dats m) 0 (V0 m) [hostOps1] c main_v5
    = shapeCast S8x8192x1024 ((dats m 0 c).arrAt 5 cfg0.N) shapeCasts_S65536x1024_S8x8192x1024 := by
  unfold Pipeline.afterTail₀
  show StableHlo.after hostOps1 _ (Proc.devRef .tc main_v5) = _
  after_results
  have h : Pipeline.withArrays (cfgs 0).spec c (V0 m c) (fun w => (dats m 0 c).arrAt w (cfgs 0).N) (Proc.devRef .tc main_v4)
      = (dats m 0 c).arrAt 5 cfg0.N :=
    Pipeline.withArrays_arr spec0 launch0.win.arr_inj c (V0 m c) _ 5
  rw [h]
  rfl

/-- THE RESULT of the device program: the layer of the five arguments. -/
theorem result_eq (c : Dev nD) : Pipeline.afterTail₀ cfgs (dats m) 0 (V0 m) [hostOps1] c main_v5
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [tail_eq, final, rows_eq, weightT_eq, cofactorT_eq, biasRow_eq, V_main_arg3]
  exact reshape_flat _ _ _ _ _ _ _ _ _ _

/-- The run, read: the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.CorrectedLinear.Region

end
-- ==== Proof.lean ====
/-
  The device program and the reference compute the same corrected linear layer over the extended reals.

  For a token with input features x[a, s, ·] both programs produce, at output feature o,
      (Σ_d x[a, s, d] · W[o, d]  +  b[o])  +  Σ_r (Σ_d x[a, s, d] · V[d, r]) · C[o, r]
  (Proof/Spec.lean, `result`).  The device program flattens the tokens to 65536 rows, transposes W and C, makes the
  bias a row, runs a grid of 128 points that each write 512 rows of the result from 512 rows of the tokens, and
  reads the rows back as tokens (Proof/Payload.lean: one stored block entry by entry; Proof/Region.lean: the blocks
  tile the result array and the reshapes and transposes around the region undo each other).  The reference
  contracts the same axes directly (Proof/RefValue.lean).  A change of float format is the identity on extended
  reals, a product into the zero accumulator is the plain sum, and the two sides add the three terms in the same
  order, so the two results are the same sums of the same products: no arithmetic law and no use of the inputs'
  finiteness is needed.  The three frames are the generated ones (the reference's is its run with the result
  dropped); the idealization rewrote nothing, so `preserves` is `True`.
-/
import proofs.«107031_j70317204570758_1_alg».proof.Defs
import proofs.«107031_j70317204570758_1_alg».proof.Proof.Gen.Kernel
import proofs.«107031_j70317204570758_1_alg».proof.Proof.Gen.Kernel.Frame
import proofs.«107031_j70317204570758_1_alg».proof.Proof.Gen.KernelIdeal
import proofs.«107031_j70317204570758_1_alg».proof.Proof.Gen.KernelIdeal.Frame
import proofs.«107031_j70317204570758_1_alg».proof.Proof.Gen.ReferenceIdeal
import proofs.«107031_j70317204570758_1_alg».proof.Proof.Gen.ReferenceIdeal.Run
import proofs.«107031_j70317204570758_1_alg».proof.Proof.Gen.ReferenceIdeal.Read
import proofs.«107031_j70317204570758_1_alg».proof.Proof.Gen.Pre_finite_inputs
import proofs.«107031_j70317204570758_1_alg».proof.Proof.RefValue
import proofs.«107031_j70317204570758_1_alg».proof.Proof.Region
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of the (agreeing) arguments in their result buffer. -/
theorem algebraic : Cert.algebraic_KernelIdeal_ReferenceIdeal := by
  intro m ρ m' ρ' _ hagree
  refine ⟨_, Cert.CorrectedLinear.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.CorrectedLinear.Reference.stage_eq_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
